-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128 .f32) (main_arg13 : FVec F S128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_v63 main_v67

def fn_part2 {F : FTy → Type} [FloatOps F] (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x128 .f32) (main_arg1 : FVec F S131072x128 .f32) (main_arg2 : FVec F S131072x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128 .f32) (main_arg12 : FVec F S128 .f32) (main_arg13 : FVec F S128 .f32) (main_arg14 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x128 : Shape := ⟨2, ![131072, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S2048x128 : Shape := ⟨2, ![2048, 128]⟩
abbrev S2048x512 : Shape := ⟨2, ![2048, 512]⟩

abbrev nBuf : Space → Nat
  | .hbm => 21
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x512, .f32⟩
  | .hbm, ⟨16, _⟩ => ⟨S128x512, .f32⟩
  | .hbm, ⟨17, _⟩ => ⟨S512, .f32⟩
  | .hbm, ⟨18, _⟩ => ⟨S1x512, .f32⟩
  | .hbm, ⟨19, _⟩ => ⟨S131072x128, .f32⟩
  | .hbm, ⟨20, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S131072x512 : Shape := ⟨2, ![131072, 512]⟩
abbrev S1x512 : Shape := ⟨2, ![1, 512]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x512, .f32⟩
  | .hbm, ⟨16, _⟩ => ⟨S128x512, .f32⟩
  | .hbm, ⟨17, _⟩ => ⟨S512, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S1x512, .f32⟩
  | .hbm, ⟨22, _⟩ => ⟨S131072x512, .f32⟩
  | .hbm, ⟨23, _⟩ => ⟨S131072x512, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S_, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.IdealStep.lean ====
/-
  The fused LSTM step as a pipeline over 64 blocks of 2048 samples: it runs to the end, faults nowhere, and leaves
  its fifteen argument arrays as they were.

  Before the one kernel region the host joins the four input-weight matrices into one [128 × 512] matrix, the four
  hidden-weight matrices into another, and the four biases into one vector of 512 entries that it then views as a
  one-row matrix; none of these four operations writes an argument. The region then visits the 64 grid points in
  order. At point t the pipeline hands the body the t-th block of 2048 rows of the input, hidden and previous-cell
  arrays and the two fused matrices and the bias row whole (these three are fetched once, at the first point, and
  stay in place), and the body stores one whole block of new hidden values and one whole block of new cell values,
  each a pure function of the six blocks it loaded. So after the body each input buffer still holds its block, and
  each output buffer holds the single stored piece, which covers it; the pipeline writes both back at every point.
-/
import proofs.«144982_j25812753449993_1_alg».proof.Proof.Gen.KernelIdeal.Launch
import proofs.«144982_j25812753449993_1_alg».proof.Proof.Gen.KernelIdeal.Skeleton
import proofs.«144982_j25812753449993_1_alg».proof.Proof.Gen.KernelIdeal.Points
import Idealize.ShloMosaic.Lib.Pipeline.FrameBody
import Idealize.ShloMosaic.Lib.Ring
import Idealize.ShloMosaic.Lib.Tactic

-- membership in a rectangle of 2048 × 128 entries: the structural look recurses once per coordinate of the long axis
set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: the launch contents after the four host operations (the two
    fused weight matrices, the fused bias and its one-row view). -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- The program is its four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the four the host operations write (the two fused matrices, the fused bias, its one-row
    view) is found by the region as launched. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2, StableHlo.devRef_ne_of_ne h3⟩))

/-- No host operation before the region writes argument 0: the region finds it as launched. -/
theorem V_main_arg0 (c : Dev nD) : V m c main_arg0 = m ((c : Thread nD τ).loc main_arg0) :=
  V_of_ne m c main_arg0 (by decide) (by decide) (by decide) (by decide)
/-- No host operation before the region writes argument 1: the region finds it as launched. -/
theorem V_main_arg1 (c : Dev nD) : V m c main_arg1 = m ((c : Thread nD τ).loc main_arg1) :=
  V_of_ne m c main_arg1 (by decide) (by decide) (by decide) (by decide)
/-- No host operation before the region writes argument 2: the region finds it as launched. -/
theorem V_main_arg2 (c : Dev nD) : V m c main_arg2 = m ((c : Thread nD τ).loc main_arg2) :=
  V_of_ne m c main_arg2 (by decide) (by decide) (by decide) (by decide)
/-- No host operation before the region writes argument 3: the region finds it as launched. -/
theorem V_main_arg3 (c : Dev nD) : V m c main_arg3 = m ((c : Thread nD τ).loc main_arg3) :=
  V_of_ne m c main_arg3 (by decide) (by decide) (by decide) (by decide)
/-- No host operation before the region writes argument 4: the region finds it as launched. -/
theorem V_main_arg4 (c : Dev nD) : V m c main_arg4 = m ((c : Thread nD τ).loc main_arg4) :=
  V_of_ne m c main_arg4 (by decide) (by decide) (by decide) (by decide)
/-- No host operation before the region writes argument 5: the region finds it as launched. -/
theorem V_main_arg5 (c : Dev nD) : V m c main_arg5 = m ((c : Thread nD τ).loc main_arg5) :=
  V_of_ne m c main_arg5 (by decide) (by decide) (by decide) (by decide)
/-- No host operation before the region writes argument 6: the region finds it as launched. -/
theorem V_main_arg6 (c : Dev nD) : V m c main_arg6 = m ((c : Thread nD τ).loc main_arg6) :=
  V_of_ne m c main_arg6 (by decide) (by decide) (by decide) (by decide)
/-- No host operation before the region writes argument 7: the region finds it as launched. -/
theorem V_main_arg7 (c : Dev nD) : V m c main_arg7 = m ((c : Thread nD τ).loc main_arg7) :=
  V_of_ne m c main_arg7 (by decide) (by decide) (by decide) (by decide)
/-- No host operation before the region writes argument 8: the region finds it as launched. -/
theorem V_main_arg8 (c : Dev nD) : V m c main_arg8 = m ((c : Thread nD τ).loc main_arg8) :=
  V_of_ne m c main_arg8 (by decide) (by decide) (by decide) (by decide)
/-- No host operation before the region writes argument 9: the region finds it as launched. -/
theorem V_main_arg9 (c : Dev nD) : V m c main_arg9 = m ((c : Thread nD τ).loc main_arg9) :=
  V_of_ne m c main_arg9 (by decide) (by decide) (by decide) (by decide)
/-- No host operation before the region writes argument 10: the region finds it as launched. -/
theorem V_main_arg10 (c : Dev nD) : V m c main_arg10 = m ((c : Thread nD τ).loc main_arg10) :=
  V_of_ne m c main_arg10 (by decide) (by decide) (by decide) (by decide)
/-- No host operation before the region writes argument 11: the region finds it as launched. -/
theorem V_main_arg11 (c : Dev nD) : V m c main_arg11 = m ((c : Thread nD τ).loc main_arg11) :=
  V_of_ne m c main_arg11 (by decide) (by decide) (by decide) (by decide)
/-- No host operation before the region writes argument 12: the region finds it as launched. -/
theorem V_main_arg12 (c : Dev nD) : V m c main_arg12 = m ((c : Thread nD τ).loc main_arg12) :=
  V_of_ne m c main_arg12 (by decide) (by decide) (by decide) (by decide)
/-- No host operation before the region writes argument 13: the region finds it as launched. -/
theorem V_main_arg13 (c : Dev nD) : V m c main_arg13 = m ((c : Thread nD τ).loc main_arg13) :=
  V_of_ne m c main_arg13 (by decide) (by decide) (by decide) (by decide)
/-- No host operation before the region writes argument 14: the region finds it as launched. -/
theorem V_main_arg14 (c : Dev nD) : V m c main_arg14 = m ((c : Thread nD τ).loc main_arg14) :=
  V_of_ne m c main_arg14 (by decide) (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, fetched there or not (when it is not fetched, its
    block index has not moved since the point before), for any proof data whose array is the region-entry array and
    whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the pipeline -/

/-- For any proof data whose arrays are the region-entry contents: a run that ends with every array of the pipeline
    at what the proof data computes and every other buffer as the region found it leaves all fifteen arguments
    unchanged: three are input windows' arrays, which no point writes, and the other twelve are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole block of 2048 rows. -/
abbrev rRows : Rect S2048x128 := Rect.unit (s := S2048x128) ![0, 0] S2048x128.size inb_S2048x128_S2048x128_0_0
/-- A whole fused weight matrix. -/
abbrev rFused : Rect S128x512 := Rect.unit (s := S128x512) ![0, 0] S128x512.size inb_S128x512_S128x512_0_0
/-- The whole one-row bias. -/
abbrev rBias : Rect S1x512 := Rect.unit (s := S1x512) ![0, 0] S1x512.size inb_S1x512_S1x512_0_0

/-! ## What the body leaves in the two output buffers -/

/-- The new-hidden buffer after the body, from the six input blocks: its one store, of the whole block. -/
def hidOut (x0 x1 x2 : Vec F S2048x128 .f32) (x3 x4 : Vec F S128x512 .f32) (x5 : Vec F S1x512 .f32) : Vec F S2048x128 .f32 :=
  View.canon [⟨rRows, k0_pay3 (View.ld x0 rRows) (View.ld x1 rRows) (View.ld x3 rFused) (View.ld x4 rFused) (View.ld x5 rBias) (View.ld x2 rRows)⟩]

/-- The new-cell buffer after the body, from the six input blocks: its one store, of the whole block. -/
def cellOut (x0 x1 x2 : Vec F S2048x128 .f32) (x3 x4 : Vec F S128x512 .f32) (x5 : Vec F S1x512 .f32) : Vec F S2048x128 .f32 :=
  View.canon [⟨rRows, k0_pay2 (View.ld x0 rRows) (View.ld x1 rRows) (View.ld x3 rFused) (View.ld x4 rFused) (View.ld x5 rBias) (View.ld x2 rRows)⟩]

/-- One store of the whole block covers the buffer. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 1000000 in
/-- The body on whole buffers, the six inputs' at read contents and the two outputs' at anything, runs to the
    continuation with the inputs' as they were and each output's at the stored block. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S2048x128 .f32) (harg7 : arg7.IsWhole) (arg8 : Memref sig .tc .vmem S2048x128 .f32) (harg8 : arg8.IsWhole)
    (x0 x1 x2 : Vec F S2048x128 .f32) (x3 x4 : Vec F S128x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hidOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of the pipeline on core c: the arrays as the region finds them; after the body at point t each
    input's buffer at its block and each output's at the stored block of the six input blocks; nothing else is used,
    nothing is owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hidOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cellOut (iblk m c 0 t) (iblk m c 1 t) (iblk m c 2 t) (iblk m c 3 t) (iblk m c 4 t) (iblk m c 5 t) := by dsimp only [dats]

/-! Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each array of the pipeline at what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Step

end
-- ==== Proof.BitsStep.lean ====
/-
  The fused LSTM step as a pipeline over 64 blocks of 2048 samples: it runs to the end, faults nowhere, and leaves
  its fifteen argument arrays as they were.

  Before the one kernel region the host joins the four input-weight matrices into one [128 × 512] matrix, the four
  hidden-weight matrices into another, and the four biases into one vector of 512 entries that it then views as a
  one-row matrix; none of these four operations writes an argument. The region then visits the 64 grid points in
  order. At point t the pipeline hands the body the t-th block of 2048 rows of the input, hidden and previous-cell
  arrays and the two fused matrices and the bias row whole (these three are fetched once, at the first point, and
  stay in place), and the body stores one whole block of new hidden values and one whole block of new cell values,
  each a pure function of the six blocks it loaded. So after the body each input buffer still holds its block, and
  each output buffer holds the single stored piece, which covers it; the pipeline writes both back at every point.
-/
import proofs.«144982_j25812753449993_1_alg».proof.Proof.Gen.Kernel.Launch
import proofs.«144982_j25812753449993_1_alg».proof.Proof.Gen.Kernel.Skeleton
import proofs.«144982_j25812753449993_1_alg».proof.Proof.Gen.Kernel.Points
import Idealize.ShloMosaic.Lib.Pipeline.FrameBody
import Idealize.ShloMosaic.Lib.Ring
import Idealize.ShloMosaic.Lib.Tactic

-- membership in a rectangle of 2048 × 128 entries: the structural look recurses once per coordinate of the long axis
set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: the launch contents after the four host operations (the two
    fused weight matrices, the fused bias and its one-row view). -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- The program is its four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the four the host operations write (the two fused matrices, the fused bias, its one-row
    view) is found by the region as launched. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2, StableHlo.devRef_ne_of_ne h3⟩))

/-- No host operation before the region writes argument 0: the region finds it as launched. -/
theorem V_main_arg0 (c : Dev nD) : V m c main_arg0 = m ((c : Thread nD τ).loc main_arg0) :=
  V_of_ne m c main_arg0 (by decide) (by decide) (by decide) (by decide)
/-- No host operation before the region writes argument 1: the region finds it as launched. -/
theorem V_main_arg1 (c : Dev nD) : V m c main_arg1 = m ((c : Thread nD τ).loc main_arg1) :=
  V_of_ne m c main_arg1 (by decide) (by decide) (by decide) (by decide)
/-- No host operation before the region writes argument 2: the region finds it as launched. -/
theorem V_main_arg2 (c : Dev nD) : V m c main_arg2 = m ((c : Thread nD τ).loc main_arg2) :=
  V_of_ne m c main_arg2 (by decide) (by decide) (by decide) (by decide)
/-- No host operation before the region writes argument 3: the region finds it as launched. -/
theorem V_main_arg3 (c : Dev nD) : V m c main_arg3 = m ((c : Thread nD τ).loc main_arg3) :=
  V_of_ne m c main_arg3 (by decide) (by decide) (by decide) (by decide)
/-- No host operation before the region writes argument 4: the region finds it as launched. -/
theorem V_main_arg4 (c : Dev nD) : V m c main_arg4 = m ((c : Thread nD τ).loc main_arg4) :=
  V_of_ne m c main_arg4 (by decide) (by decide) (by decide) (by decide)
/-- No host operation before the region writes argument 5: the region finds it as launched. -/
theorem V_main_arg5 (c : Dev nD) : V m c main_arg5 = m ((c : Thread nD τ).loc main_arg5) :=
  V_of_ne m c main_arg5 (by decide) (by decide) (by decide) (by decide)
/-- No host operation before the region writes argument 6: the region finds it as launched. -/
theorem V_main_arg6 (c : Dev nD) : V m c main_arg6 = m ((c : Thread nD τ).loc main_arg6) :=
  V_of_ne m c main_arg6 (by decide) (by decide) (by decide) (by decide)
/-- No host operation before the region writes argument 7: the region finds it as launched. -/
theorem V_main_arg7 (c : Dev nD) : V m c main_arg7 = m ((c : Thread nD τ).loc main_arg7) :=
  V_of_ne m c main_arg7 (by decide) (by decide) (by decide) (by decide)
/-- No host operation before the region writes argument 8: the region finds it as launched. -/
theorem V_main_arg8 (c : Dev nD) : V m c main_arg8 = m ((c : Thread nD τ).loc main_arg8) :=
  V_of_ne m c main_arg8 (by decide) (by decide) (by decide) (by decide)
/-- No host operation before the region writes argument 9: the region finds it as launched. -/
theorem V_main_arg9 (c : Dev nD) : V m c main_arg9 = m ((c : Thread nD τ).loc main_arg9) :=
  V_of_ne m c main_arg9 (by decide) (by decide) (by decide) (by decide)
/-- No host operation before the region writes argument 10: the region finds it as launched. -/
theorem V_main_arg10 (c : Dev nD) : V m c main_arg10 = m ((c : Thread nD τ).loc main_arg10) :=
  V_of_ne m c main_arg10 (by decide) (by decide) (by decide) (by decide)
/-- No host operation before the region writes argument 11: the region finds it as launched. -/
theorem V_main_arg11 (c : Dev nD) : V m c main_arg11 = m ((c : Thread nD τ).loc main_arg11) :=
  V_of_ne m c main_arg11 (by decide) (by decide) (by decide) (by decide)
/-- No host operation before the region writes argument 12: the region finds it as launched. -/
theorem V_main_arg12 (c : Dev nD) : V m c main_arg12 = m ((c : Thread nD τ).loc main_arg12) :=
  V_of_ne m c main_arg12 (by decide) (by decide) (by decide) (by decide)
/-- No host operation before the region writes argument 13: the region finds it as launched. -/
theorem V_main_arg13 (c : Dev nD) : V m c main_arg13 = m ((c : Thread nD τ).loc main_arg13) :=
  V_of_ne m c main_arg13 (by decide) (by decide) (by decide) (by decide)
/-- No host operation before the region writes argument 14: the region finds it as launched. -/
theorem V_main_arg14 (c : Dev nD) : V m c main_arg14 = m ((c : Thread nD τ).loc main_arg14) :=
  V_of_ne m c main_arg14 (by decide) (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, fetched there or not (when it is not fetched, its
    block index has not moved since the point before), for any proof data whose array is the region-entry array and
    whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the pipeline -/

/-- For any proof data whose arrays are the region-entry contents: a run that ends with every array of the pipeline
    at what the proof data computes and every other buffer as the region found it leaves all fifteen arguments
    unchanged: three are input windows' arrays, which no point writes, and the other twelve are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole block of 2048 rows. -/
abbrev rRows : Rect S2048x128 := Rect.unit (s := S2048x128) ![0, 0] S2048x128.size inb_S2048x128_S2048x128_0_0
/-- A whole fused weight matrix. -/
abbrev rFused : Rect S128x512 := Rect.unit (s := S128x512) ![0, 0] S128x512.size inb_S128x512_S128x512_0_0
/-- The whole one-row bias. -/
abbrev rBias : Rect S1x512 := Rect.unit (s := S1x512) ![0, 0] S1x512.size inb_S1x512_S1x512_0_0

/-! ## What the body leaves in the two output buffers -/

/-- The new-hidden buffer after the body, from the six input blocks: its one store, of the whole block. -/
def hidOut (x0 x1 x2 : Vec F S2048x128 .f32) (x3 x4 : Vec F S128x512 .f32) (x5 : Vec F S1x512 .f32) : Vec F S2048x128 .f32 :=
  View.canon [⟨rRows, k0_pay3 (View.ld x0 rRows) (View.ld x1 rRows) (View.ld x3 rFused) (View.ld x4 rFused) (View.ld x5 rBias) (View.ld x2 rRows)⟩]

/-- The new-cell buffer after the body, from the six input blocks: its one store, of the whole block. -/
def cellOut (x0 x1 x2 : Vec F S2048x128 .f32) (x3 x4 : Vec F S128x512 .f32) (x5 : Vec F S1x512 .f32) : Vec F S2048x128 .f32 :=
  View.canon [⟨rRows, k0_pay2 (View.ld x0 rRows) (View.ld x1 rRows) (View.ld x3 rFused) (View.ld x4 rFused) (View.ld x5 rBias) (View.ld x2 rRows)⟩]

/-- One store of the whole block covers the buffer. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 1000000 in
/-- The body on whole buffers, the six inputs' at read contents and the two outputs' at anything, runs to the
    continuation with the inputs' as they were and each output's at the stored block. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S2048x128 .f32) (harg7 : arg7.IsWhole) (arg8 : Memref sig .tc .vmem S2048x128 .f32) (harg8 : arg8.IsWhole)
    (x0 x1 x2 : Vec F S2048x128 .f32) (x3 x4 : Vec F S128x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hidOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of the pipeline on core c: the arrays as the region finds them; after the body at point t each
    input's buffer at its block and each output's at the stored block of the six input blocks; nothing else is used,
    nothing is owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hidOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cellOut (iblk m c 0 t) (iblk m c 1 t) (iblk m c 2 t) (iblk m c 3 t) (iblk m c 4 t) (iblk m c 5 t) := by dsimp only [dats]

/-! Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each array of the pipeline at what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Step

end
-- ==== Proof.Spec.lean ====
/-
  One step of an LSTM cell whose four gates share two fused weight matrices.

  A sample has an input row x and a hidden row h (128 entries each) and a previous cell row c. The four gates'
  input weights are joined side by side into one [128 × 512] matrix Wx, the hidden weights into Wh, the biases
  into one vector b of 512 entries, so that fused column q carries gate q / 128 at lane q % 128: input gate at
  columns 0‥127, forget gate at 128‥255, candidate at 256‥383, output gate at 384‥511. The pre-activation of fused
  column q is

      pre q = (∑ k, x k · Wx (k, q)) + (∑ k, h k · Wh (k, q)) + b q ,

  and at lane j the new cell and hidden values are

      c' j = σ (pre (128 + j)) · c j + σ (pre j) · tanh (pre (256 + j)) ,
      h' j = σ (pre (384 + j)) · tanh (c' j) ,

  on the extended reals, σ the logistic function 1 / (1 + e^(-a)). Everything is stated for ONE sample through
  the families  k ↦ x k  and  k ↦ h k , so the same function reads a block of rows and the whole array of rows.
-/
import Idealize.ShloMosaic.PureOps.Ideal
import Idealize.ShloMosaic.Lib.ValueIdx

noncomputable section

open scoped BigOperators

namespace Cert.Cell

open Idealize.ShloMosaic Idealize.ShloMosaic.ValueIdx

/-- The activations: one row of 128 entries per sample. -/
abbrev SAct : Shape := ⟨2, ![131072, 128]⟩
/-- One gate's weight matrix. -/
abbrev SWt : Shape := ⟨2, ![128, 128]⟩
/-- The four gates' weight matrices side by side. -/
abbrev SW : Shape := ⟨2, ![128, 512]⟩
/-- One gate's bias. -/
abbrev SBv : Shape := ⟨1, ![128]⟩
/-- The four gates' biases end to end. -/
abbrev SBias : Shape := ⟨1, ![512]⟩

/-- Lane j of the input gate among the fused columns. -/
def colI (j : Fin 128) : Fin 512 := ⟨j.val, by omega⟩
/-- Lane j of the forget gate among the fused columns. -/
def colF (j : Fin 128) : Fin 512 := ⟨128 + j.val, by omega⟩
/-- Lane j of the candidate among the fused columns. -/
def colG (j : Fin 128) : Fin 512 := ⟨256 + j.val, by omega⟩
/-- Lane j of the output gate among the fused columns. -/
def colO (j : Fin 128) : Fin 512 := ⟨384 + j.val, by omega⟩

/-- The pre-activation of fused column q for one sample: (x · Wx) q + (h · Wh) q + b q. -/
def pre (xr hr : Fin 128 → EReal) (wx wh : SW.Idx → EReal) (b : Fin 512 → EReal) (q : Fin 512) : EReal :=
  ((∑ k : Fin 128, xr k * wx (ix2 k q)) + ∑ k : Fin 128, hr k * wh (ix2 k q)) + b q

/-- The new cell value at lane j: forget gate times the previous cell value plus input gate times candidate. -/
def cellNew (xr hr : Fin 128 → EReal) (wx wh : SW.Idx → EReal) (b : Fin 512 → EReal) (cp : EReal) (j : Fin 128) : EReal :=
  Ideal.logistic (pre xr hr wx wh b (colF j)) * cp
    + Ideal.logistic (pre xr hr wx wh b (colI j)) * Ideal.tanh (pre xr hr wx wh b (colG j))

/-- The new hidden value at lane j: output gate times tanh of the new cell value. -/
def hidNew (xr hr : Fin 128 → EReal) (wx wh : SW.Idx → EReal) (b : Fin 512 → EReal) (cp : EReal) (j : Fin 128) : EReal :=
  Ideal.logistic (pre xr hr wx wh b (colO j)) * Ideal.tanh (cellNew xr hr wx wh b cp j)

/-- The new cell value of sample r at lane j, from the arrays of all samples. -/
def cellAt (x h c : SAct.Idx → EReal) (wx wh : SW.Idx → EReal) (b : SBias.Idx → EReal) (r : Fin 131072) (j : Fin 128) : EReal :=
  cellNew (fun k => x (ix2 r k)) (fun k => h (ix2 r k)) wx wh (fun q => b (ix1 q)) (c (ix2 r j)) j

/-- The new hidden value of sample r at lane j, from the arrays of all samples. -/
def hidAt (x h c : SAct.Idx → EReal) (wx wh : SW.Idx → EReal) (b : SBias.Idx → EReal) (r : Fin 131072) (j : Fin 128) : EReal :=
  hidNew (fun k => x (ix2 r k)) (fun k => h (ix2 r k)) wx wh (fun q => b (ix1 q)) (c (ix2 r j)) j

/-- The array of new cell values. -/
def cellArr (x h c : SAct.Idx → EReal) (wx wh : SW.Idx → EReal) (b : SBias.Idx → EReal) : SAct.Idx → EReal :=
  fun i => cellAt x h c wx wh b (i 0) (i 1)

/-- The array of new hidden values. -/
def hidArr (x h c : SAct.Idx → EReal) (wx wh : SW.Idx → EReal) (b : SBias.Idx → EReal) : SAct.Idx → EReal :=
  fun i => hidAt x h c wx wh b (i 0) (i 1)

/-- Four [128 × 128] matrices side by side fill a [128 × 512] matrix. -/
theorem catW : Shape.Concatenates [SWt, SWt, SWt, SWt] SW 1 := by decide
/-- Four vectors of 128 entries end to end fill a vector of 512 entries. -/
theorem catB : Shape.Concatenates [SBv, SBv, SBv, SBv] SBias 0 := by decide

/-- Four gates' weight matrices joined side by side (along the columns). -/
def fuseW (w0 w1 w2 w3 : FVec Ideal SWt .f32) : FVec Ideal SW .f32 :=
  concatenate SW 1 [⟨SWt, w0⟩, ⟨SWt, w1⟩, ⟨SWt, w2⟩, ⟨SWt, w3⟩] catW

/-- Four gates' biases joined end to end. -/
def fuseB (b0 b1 b2 b3 : FVec Ideal SBv .f32) : FVec Ideal SBias .f32 :=
  concatenate SBias 0 [⟨SBv, b0⟩, ⟨SBv, b1⟩, ⟨SBv, b2⟩, ⟨SBv, b3⟩] catB

/-- The float pattern of 1.0 denotes the extended real 1. -/
theorem one_f32 : Ideal.ofBits .f32 0x3F800000#32 = 1 := by
  simp [Ideal.ofBits, Ideal.ieee, -EReal.coe_mul]; norm_num

/-- The sigmoid spelt out with the literal 1.0, 1.0 / (1.0 + e^(-a)), is the logistic function. -/
theorem logistic_spelt (a : EReal) :
    Ideal.div (Ideal.ofBits .f32 0x3F800000#32) (Ideal.ofBits .f32 0x3F800000#32 + Ideal.exp (-a)) = Ideal.logistic a := by
  rw [one_f32]; rfl

theorem cellArr_ix2 (x h c : SAct.Idx → EReal) (wx wh : SW.Idx → EReal) (b : SBias.Idx → EReal) (r : Fin 131072) (j : Fin 128) :
    cellArr x h c wx wh b (ix2 r j) = cellAt x h c wx wh b r j := rfl

theorem hidArr_ix2 (x h c : SAct.Idx → EReal) (wx wh : SW.Idx → EReal) (b : SBias.Idx → EReal) (r : Fin 131072) (j : Fin 128) :
    hidArr x h c wx wh b (ix2 r j) = hidAt x h c wx wh b r j := rfl

end Cert.Cell

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.BlockCell.lean ====
/-
  What the kernel body stores, read at one entry of a block of 2048 samples.

  The body's two stored values are pure functions of the six blocks it loads: the samples' input, hidden and
  previous-cell rows, the two fused weight matrices (whole) and the fused bias as a one-row matrix. At (row p, lane j)
  of the block they are the cell step of sample p: the two products into a zero accumulator are the plain sums over
  the shared axis, a change of float format is the identity on the extended reals, the one-row bias is repeated along
  the rows, and the four column slices at offsets 0, 128, 256, 384 pick the four gates' lanes.
-/
import proofs.«144982_j25812753449993_1_alg».proof.Proof.Gen.KernelIdeal.Skeleton
import proofs.«144982_j25812753449993_1_alg».proof.Proof.Spec
import proofs.«144982_j25812753449993_1_alg».proof.Proof.LibDotRowsCols
import Idealize.ShloMosaic.Lib.ValueLayout

noncomputable section

open scoped BigOperators

namespace Cert.BlockCell

open Idealize.ShloMosaic Idealize.ShloMosaic.ValueIdx Cert.Cell Cert.Lib.DotRowsCols

/-- The printed dimension numbers are those of a plain rows-by-columns product [2048 × 128] · [128 × 512]. -/
private theorem dot_rowsCols :
    RowsCols (n := 2048) (K := 128) (c := 512) Cert.KernelIdeal.dot_S2048x128_S128x512_S2048x512_1_0_0_1_n_n :=
  ⟨rfl, rfl, rfl, rfl, rfl, rfl⟩

/-- One product of the body at entry (p, q): the rows are rounded to a narrower float format and the weights are
    recast to their own shape and rounded, all of which is the identity on the extended reals, so the product into the
    zero accumulator is the plain sum over the shared axis of row p of the block against column q of the weights. -/
private theorem prod_apply (l : Vec Ideal Cert.KernelIdeal.S2048x128 .f32) (w : Vec Ideal Cert.KernelIdeal.S128x512 .f32)
    (p : Fin 2048) (q : Fin 512) :
    matmul (F := Ideal) Cert.KernelIdeal.dot_S2048x128_S128x512_S2048x512_1_0_0_1_n_n none
        (truncf .bf16 l Cert.KernelIdeal.Gen.bitsLt_bf16_f32)
        (truncf .bf16 (shapeCast Cert.KernelIdeal.S128x512 w Cert.KernelIdeal.Gen.shapeCasts_S128x512_S128x512)
          Cert.KernelIdeal.Gen.bitsLt_bf16_f32)
        (constant (F := Ideal) Cert.KernelIdeal.S2048x512 .f32 0x00000000#32) (ix2 p q)
      = ∑ k : Fin 128, l (ix2 p k) * w (ix2 k q) := by
  refine (dot_rowsCols.matmul_zero_apply none _ _ (ix2 p q)).trans ?_
  rw [shapeCast_self]
  rfl

/-- The fused pre-activation block at entry (p, q): the two products' sums, plus the one-row bias repeated along the
    rows, which reads the bias at column q. -/
private theorem pre_apply (xb hb : Vec Ideal Cert.KernelIdeal.S2048x128 .f32) (wx wh : Vec Ideal Cert.KernelIdeal.S128x512 .f32)
    (b : Vec Ideal Cert.KernelIdeal.S1x512 .f32) (p : Fin 2048) (q : Fin 512) :
    Cert.KernelIdeal.Gen.k0_pay1 (F := Ideal) xb hb wx wh b (ix2 p q)
      = pre (fun k => xb (ix2 p k)) (fun k => hb (ix2 p k)) wx wh (fun q => b (ix2 (0 : Fin 1) q)) q := by
  unfold Cert.KernelIdeal.Gen.k0_pay1 pre
  refine congrArg₂ (· + ·) (congrArg₂ (· + ·) (prod_apply xb wx p q) (prod_apply hb wh p q)) ?_
  rw [shapeCast_self]
  exact broadcastTo_1b_ab_apply b _ p q

/-- The column slice at offset 0 picks the input gate's lanes. -/
private theorem sliceI (v : Vec Ideal Cert.KernelIdeal.S2048x512 .f32) (p : Fin 2048) (j : Fin 128) :
    extractStridedSlice Cert.KernelIdeal.S2048x128 ![0, 0] v Cert.KernelIdeal.Gen.slices_S2048x512_o0_0_S2048x128 (ix2 p j)
      = v (ix2 p (colI j)) :=
  slice2_axis1_apply 0 v _ p j (colI j) (Nat.zero_add _).symm

/-- The column slice at offset 128 picks the forget gate's lanes. -/
private theorem sliceF (v : Vec Ideal Cert.KernelIdeal.S2048x512 .f32) (p : Fin 2048) (j : Fin 128) :
    extractStridedSlice Cert.KernelIdeal.S2048x128 ![0, 128] v Cert.KernelIdeal.Gen.slices_S2048x512_o0_128_S2048x128 (ix2 p j)
      = v (ix2 p (colF j)) :=
  slice2_axis1_apply 128 v _ p j (colF j) rfl

/-- The column slice at offset 256 picks the candidate's lanes. -/
private theorem sliceG (v : Vec Ideal Cert.KernelIdeal.S2048x512 .f32) (p : Fin 2048) (j : Fin 128) :
    extractStridedSlice Cert.KernelIdeal.S2048x128 ![0, 256] v Cert.KernelIdeal.Gen.slices_S2048x512_o0_256_S2048x128 (ix2 p j)
      = v (ix2 p (colG j)) :=
  slice2_axis1_apply 256 v _ p j (colG j) rfl

/-- The column slice at offset 384 picks the output gate's lanes. -/
private theorem sliceO (v : Vec Ideal Cert.KernelIdeal.S2048x512 .f32) (p : Fin 2048) (j : Fin 128) :
    extractStridedSlice Cert.KernelIdeal.S2048x128 ![0, 384] v Cert.KernelIdeal.Gen.slices_S2048x512_o0_384_S2048x128 (ix2 p j)
      = v (ix2 p (colO j)) :=
  slice2_axis1_apply 384 v _ p j (colO j) rfl

/-- The value the body stores into the new-cell block, at row p and lane j. -/
theorem pay_cell (xb hb : Vec Ideal Cert.KernelIdeal.S2048x128 .f32) (wx wh : Vec Ideal Cert.KernelIdeal.S128x512 .f32)
    (b : Vec Ideal Cert.KernelIdeal.S1x512 .f32) (cb : Vec Ideal Cert.KernelIdeal.S2048x128 .f32) (p : Fin 2048) (j : Fin 128) :
    Cert.KernelIdeal.Gen.k0_pay2 (F := Ideal) xb hb wx wh b cb (ix2 p j)
      = cellNew (fun k => xb (ix2 p k)) (fun k => hb (ix2 p k)) wx wh (fun q => b (ix2 (0 : Fin 1) q)) (cb (ix2 p j)) j := by
  unfold Cert.KernelIdeal.Gen.k0_pay2 cellNew
  -- forget gate × previous cell value + input gate × candidate, each gate read through its slice
  refine congrArg₂ (· + ·) (congrArg (· * cb (ix2 p j)) (congrArg Ideal.logistic ?_))
    (congrArg₂ (· * ·) (congrArg Ideal.logistic ?_) (congrArg Ideal.tanh ?_))
  · exact (sliceF _ p j).trans (pre_apply xb hb wx wh b p (colF j))
  · exact (sliceI _ p j).trans (pre_apply xb hb wx wh b p (colI j))
  · exact (sliceG _ p j).trans (pre_apply xb hb wx wh b p (colG j))

/-- The value the body stores into the new-hidden block, at row p and lane j. -/
theorem pay_hid (xb hb : Vec Ideal Cert.KernelIdeal.S2048x128 .f32) (wx wh : Vec Ideal Cert.KernelIdeal.S128x512 .f32)
    (b : Vec Ideal Cert.KernelIdeal.S1x512 .f32) (cb : Vec Ideal Cert.KernelIdeal.S2048x128 .f32) (p : Fin 2048) (j : Fin 128) :
    Cert.KernelIdeal.Gen.k0_pay3 (F := Ideal) xb hb wx wh b cb (ix2 p j)
      = hidNew (fun k => xb (ix2 p k)) (fun k => hb (ix2 p k)) wx wh (fun q => b (ix2 (0 : Fin 1) q)) (cb (ix2 p j)) j := by
  unfold Cert.KernelIdeal.Gen.k0_pay3 hidNew
  -- output gate × tanh of the new cell value
  refine congrArg₂ (· * ·) (congrArg Ideal.logistic ?_) (congrArg Ideal.tanh (pay_cell xb hb wx wh b cb p j))
  exact (sliceO _ p j).trans (pre_apply xb hb wx wh b p (colO j))

end Cert.BlockCell

end
-- ==== Proof.IdealValue.lean ====
/-
  The two arrays the fused LSTM step leaves, as one function of its argument arrays.

  Point t of the pipeline writes back one block of 2048 rows of each result, rows t · 2048 … t · 2048 + 2047, and the
  64 blocks tile the 131072 rows, so each result array ends at whatever function every point's block is a block of.
  At row p, lane j of point t's block the body stored the cell step of sample t · 2048 + p: the three row blocks it
  loaded are rows t · 2048 + p of the input, hidden and previous-cell arrays, and the two weight blocks and the bias
  row are the whole fused matrices and the fused bias that the host operations before the region wrote, the bias
  read through its one-row view.
-/
import proofs.«144982_j25812753449993_1_alg».proof.Proof.IdealStep
import proofs.«144982_j25812753449993_1_alg».proof.Proof.BlockCell
import proofs.«144982_j25812753449993_1_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.StepValue

open Cert.KernelIdeal Cert.KernelIdeal.Gen Cert.KernelIdeal.Step Cert.Cell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays, and what the host operations make of them -/

/-- The input rows. -/
abbrev xArr (c : Dev nD) : FVec Ideal SAct .f32 := (m ((c : Thread nD τ).loc main_arg0))
/-- The hidden rows. -/
abbrev hArr (c : Dev nD) : FVec Ideal SAct .f32 := (m ((c : Thread nD τ).loc main_arg1))
/-- The previous cell rows. -/
abbrev cArr (c : Dev nD) : FVec Ideal SAct .f32 := (m ((c : Thread nD τ).loc main_arg2))
/-- The four input-weight matrices side by side. -/
abbrev wxArr (c : Dev nD) : FVec Ideal SW .f32 := fuseW (m ((c : Thread nD τ).loc main_arg3)) (m ((c : Thread nD τ).loc main_arg4)) (m ((c : Thread nD τ).loc main_arg5)) (m ((c : Thread nD τ).loc main_arg6))
/-- The four hidden-weight matrices side by side. -/
abbrev whArr (c : Dev nD) : FVec Ideal SW .f32 := fuseW (m ((c : Thread nD τ).loc main_arg7)) (m ((c : Thread nD τ).loc main_arg8)) (m ((c : Thread nD τ).loc main_arg9)) (m ((c : Thread nD τ).loc main_arg10))
/-- The four biases end to end. -/
abbrev bArr (c : Dev nD) : FVec Ideal SBias .f32 := fuseB (m ((c : Thread nD τ).loc main_arg11)) (m ((c : Thread nD τ).loc main_arg12)) (m ((c : Thread nD τ).loc main_arg13)) (m ((c : Thread nD τ).loc main_arg14))

/-- The region finds the fused input-weight matrix in the first joined buffer. -/
theorem V_fusedX (c : Dev nD) : (V m c main_v0 : S128x512.Idx → EReal) = wxArr m c := by
  dsimp only [V, hostOps0]; after_results; rfl

/-- The region finds the fused hidden-weight matrix in the second joined buffer. -/
theorem V_fusedH (c : Dev nD) : (V m c main_v1 : S128x512.Idx → EReal) = whArr m c := by
  dsimp only [V, hostOps0]; after_results; rfl

/-- The region finds the fused bias, viewed as a one-row matrix, in the fourth buffer the host operations write. -/
theorem V_biasRow (c : Dev nD) : (V m c main_v3 : S1x512.Idx → EReal) = shapeCast S1x512 (bArr m c) shapeCasts_S512_S1x512 := by
  dsimp only [V, hostOps0]; after_results; rfl

/-! ## The index maps, and the blocks read where they lie -/

theorem hz : (![0, 0] : Fin 2 → Nat) = fun _ => 0 := funext fun a => by fin_cases a <;> rfl

/-- The printed index maps, decided over the 64 points: the three row windows and the two result windows are at block
    (t, 0) at point t, the two weight windows and the bias window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The sample that row p of point t's block belongs to. -/
def rowOf (t : Fin cfg0.N) (p : Fin 2048) : Fin 131072 :=
  ⟨t.val * 2048 + p.val, by have ht : t.val < 64 := lt_of_lt_of_eq t.isLt N_0; have hp := p.isLt; omega⟩

/-- Row p of window 0's block at point t is row t · 2048 + p of its array. -/
theorem read_rows0 (c : Dev nD) (t : Fin cfg0.N) (p : Fin 2048) (k : Fin 128) :
    iblk m c 0 t (ix2 p k) = m ((c : Thread nD τ).loc main_arg0) (ix2 (rowOf t p) k) := by
  have e := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega

/-- Row p of window 1's block at point t is row t · 2048 + p of its array. -/
theorem read_rows1 (c : Dev nD) (t : Fin cfg0.N) (p : Fin 2048) (k : Fin 128) :
    iblk m c 1 t (ix2 p k) = m ((c : Thread nD τ).loc main_arg1) (ix2 (rowOf t p) k) := by
  have e := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega

/-- Row p of window 2's block at point t is row t · 2048 + p of its array. -/
theorem read_rows2 (c : Dev nD) (t : Fin cfg0.N) (p : Fin 2048) (k : Fin 128) :
    iblk m c 2 t (ix2 p k) = m ((c : Thread nD τ).loc main_arg2) (ix2 (rowOf t p) k) := by
  have e := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * k.val = k.val; omega

/-- Window 3's block at every point is its whole array. -/
theorem read_whole3 (c : Dev nD) (t : Fin cfg0.N) : (iblk m c 3 t : S128x512.Idx → EReal) = V m c main_v0 := by
  have e := idx_facts t
  funext y
  show V m c main_v0 (((cfg0.win 3).blk t).view.emb y) = V m c main_v0 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 512 + 1 * (y 1).val = (y 1).val; omega

/-- Window 4's block at every point is its whole array. -/
theorem read_whole4 (c : Dev nD) (t : Fin cfg0.N) : (iblk m c 4 t : S128x512.Idx → EReal) = V m c main_v1 := by
  have e := idx_facts t
  funext y
  show V m c main_v1 (((cfg0.win 4).blk t).view.emb y) = V m c main_v1 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 512 + 1 * (y 1).val = (y 1).val; omega

/-- Window 5's block at every point is its whole array. -/
theorem read_whole5 (c : Dev nD) (t : Fin cfg0.N) : (iblk m c 5 t : S1x512.Idx → EReal) = V m c main_v3 := by
  have e := idx_facts t
  funext y
  show V m c main_v3 (((cfg0.win 5).blk t).view.emb y) = V m c main_v3 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- The bias row's block, at lane q of its one row, is entry q of the fused bias. -/
theorem read_bias (c : Dev nD) (t : Fin cfg0.N) (q : Fin 512) : iblk m c 5 t (ix2 (0 : Fin 1) q) = bArr m c (ix1 q) := by
  have h := congrFun (read_whole5 m c t) (ix2 (0 : Fin 1) q)
  refine h.trans ?_
  rw [V_biasRow]
  exact shapeCast_a_1a_apply (bArr m c) _ (0 : Fin 1) q

/-! ## The stored blocks at an entry -/

/-- The stored new-hidden block at row p, lane j is the cell step's hidden value of the p-th rows of the blocks. -/
theorem hidOut_apply (x0 x1 x2 : Vec Ideal S2048x128 .f32) (x3 x4 : Vec Ideal S128x512 .f32) (x5 : Vec Ideal S1x512 .f32) (p : Fin 2048) (j : Fin 128) :
    hidOut x0 x1 x2 x3 x4 x5 (ix2 p j)
      = hidNew (fun k => x0 (ix2 p k)) (fun k => x1 (ix2 p k)) x3 x4 (fun q => x5 (ix2 (0 : Fin 1) q)) (x2 (ix2 p j)) j := by
  unfold hidOut
  rw [View.canon_unit_zero hz]
  simp only [View.ld_unit_zero (S := S2048x128) hz, View.ld_unit_zero (S := S128x512) hz, View.ld_unit_zero (S := S1x512) hz]
  exact Cert.BlockCell.pay_hid x0 x1 x3 x4 x5 x2 p j

/-- The stored new-cell block at row p, lane j is the cell step's cell value of the p-th rows of the blocks. -/
theorem cellOut_apply (x0 x1 x2 : Vec Ideal S2048x128 .f32) (x3 x4 : Vec Ideal S128x512 .f32) (x5 : Vec Ideal S1x512 .f32) (p : Fin 2048) (j : Fin 128) :
    cellOut x0 x1 x2 x3 x4 x5 (ix2 p j)
      = cellNew (fun k => x0 (ix2 p k)) (fun k => x1 (ix2 p k)) x3 x4 (fun q => x5 (ix2 (0 : Fin 1) q)) (x2 (ix2 p j)) j := by
  unfold cellOut
  rw [View.canon_unit_zero hz]
  simp only [View.ld_unit_zero (S := S2048x128) hz, View.ld_unit_zero (S := S128x512) hz, View.ld_unit_zero (S := S1x512) hz]
  exact Cert.BlockCell.pay_cell x0 x1 x3 x4 x5 x2 p j

/-! ## The new hidden array -/

/-- What point t writes back to the new-hid array is block t of the cell step's hid values of the argument arrays. -/
theorem flushed_hid (c : Dev nD) (t : Fin cfg0.N) :
    (dats m 0 c).flushed 6 t = ((cfg0.win 6).blk t).view.read (Elt Ideal) (hidArr (xArr m c) (hArr m c) (cArr m c) (wxArr m c) (whArr m c) (bArr m c)) := by
  show (cfg0.win 6).cut (grid0.coords t) ((dats m 0 c).after 6 t) = _
  rw [after6]
  have e := idx_facts t
  funext y
  obtain ⟨p, j, rfl⟩ : ∃ (p : Fin 2048) (j : Fin 128), y = ix2 p j := ⟨y 0, y 1, eq_ix2 y⟩
  have hemb : ((cfg0.win 6).blk t).view.emb (ix2 p j) = ix2 (rowOf t p) j := by
    funext a; apply Fin.ext
    match a with
    | ⟨0, _⟩ => show win0_6.index t (0 : Fin 2) * 2048 + 1 * p.val = t.val * 2048 + p.val; omega
    | ⟨1, _⟩ => show win0_6.index t (1 : Fin 2) * 128 + 1 * j.val = j.val; omega
  show hidOut (iblk m c 0 t) (iblk m c 1 t) (iblk m c 2 t) (iblk m c 3 t) (iblk m c 4 t) (iblk m c 5 t) (ix2 p j)
    = hidArr (xArr m c) (hArr m c) (cArr m c) (wxArr m c) (whArr m c) (bArr m c) (((cfg0.win 6).blk t).view.emb (ix2 p j))
  rw [hemb, hidArr_ix2]
  refine (hidOut_apply (iblk m c 0 t) (iblk m c 1 t) (iblk m c 2 t) (iblk m c 3 t) (iblk m c 4 t) (iblk m c 5 t) p j).trans ?_
  unfold hidAt
  rw [show (fun k => iblk m c 0 t (ix2 p k)) = (fun k => xArr m c (ix2 (rowOf t p) k)) from funext fun k => read_rows0 m c t p k,
    show (fun k => iblk m c 1 t (ix2 p k)) = (fun k => hArr m c (ix2 (rowOf t p) k)) from funext fun k => read_rows1 m c t p k,
    show (fun q => iblk m c 5 t (ix2 (0 : Fin 1) q)) = (fun q => bArr m c (ix1 q)) from funext fun q => read_bias m c t q,
    show iblk m c 2 t (ix2 p j) = cArr m c (ix2 (rowOf t p) j) from read_rows2 m c t p j,
    show (iblk m c 3 t : S128x512.Idx → EReal) = wxArr m c from (read_whole3 m c t).trans (V_fusedX m c),
    show (iblk m c 4 t : S128x512.Idx → EReal) = whArr m c from (read_whole4 m c t).trans (V_fusedH m c)]

/-- An index of the new-hid array is in point t's block iff each coordinate is in the block's range on its axis. -/
theorem mem_blk_hid (t : Fin cfg0.N) (i : S131072x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v4_0).slice (win0_6.rect t)).set ↔ _
  rw [View.set_slice_whole, Rect.mem_set_unit]
  exact Iff.rfl

/-- Every sample's row lies in the block of the point numbered by its row divided by 2048. -/
theorem cover_hid (i : S131072x128.Idx) : ∃ t : Fin cfg0.N, (cfg0.win 6).flush t = true ∧ i ∈ ((cfg0.win 6).blk t).view.set := by
  have hi0 : (i 0).val < 131072 := (i 0).isLt
  have hi1 : (i 1).val < 128 := (i 1).isLt
  have hlt : (i 0).val / 2048 < cfg0.N := by show (i 0).val / 2048 < grid0.N; rw [N_0]; omega
  have e := idx_facts ⟨(i 0).val / 2048, hlt⟩
  have hv : (⟨(i 0).val / 2048, hlt⟩ : Fin cfg0.N).val = (i 0).val / 2048 := rfl
  refine ⟨⟨(i 0).val / 2048, hlt⟩, flush0_6 _, ?_⟩
  rw [mem_blk_hid]
  intro a
  match a with
  | ⟨0, _⟩ => show win0_6.index ⟨(i 0).val / 2048, hlt⟩ (0 : Fin 2) * 2048 ≤ (i 0).val ∧ (i 0).val < win0_6.index ⟨(i 0).val / 2048, hlt⟩ (0 : Fin 2) * 2048 + 2048; omega
  | ⟨1, _⟩ => show win0_6.index ⟨(i 0).val / 2048, hlt⟩ (1 : Fin 2) * 128 ≤ (i 1).val ∧ (i 1).val < win0_6.index ⟨(i 0).val / 2048, hlt⟩ (1 : Fin 2) * 128 + 128; omega

/-- The new-hid array after the run is the cell step's hid values of the argument arrays, at every sample and lane. -/
theorem final_hid (c : Dev nD) :
    (dats m 0 c).arrAt 6 cfg0.N = hidArr (xArr m c) (hArr m c) (cArr m c) (wxArr m c) (whArr m c) (bArr m c) :=
  (dats m 0 c).arrAt_eq_of_cover 6 _ (fun t _ => flushed_hid m c t) cover_hid

/-! ## The new cell array -/

/-- What point t writes back to the new-cell array is block t of the cell step's cell values of the argument arrays. -/
theorem flushed_cell (c : Dev nD) (t : Fin cfg0.N) :
    (dats m 0 c).flushed 7 t = ((cfg0.win 7).blk t).view.read (Elt Ideal) (cellArr (xArr m c) (hArr m c) (cArr m c) (wxArr m c) (whArr m c) (bArr m c)) := by
  show (cfg0.win 7).cut (grid0.coords t) ((dats m 0 c).after 7 t) = _
  rw [after7]
  have e := idx_facts t
  funext y
  obtain ⟨p, j, rfl⟩ : ∃ (p : Fin 2048) (j : Fin 128), y = ix2 p j := ⟨y 0, y 1, eq_ix2 y⟩
  have hemb : ((cfg0.win 7).blk t).view.emb (ix2 p j) = ix2 (rowOf t p) j := by
    funext a; apply Fin.ext
    match a with
    | ⟨0, _⟩ => show win0_7.index t (0 : Fin 2) * 2048 + 1 * p.val = t.val * 2048 + p.val; omega
    | ⟨1, _⟩ => show win0_7.index t (1 : Fin 2) * 128 + 1 * j.val = j.val; omega
  show cellOut (iblk m c 0 t) (iblk m c 1 t) (iblk m c 2 t) (iblk m c 3 t) (iblk m c 4 t) (iblk m c 5 t) (ix2 p j)
    = cellArr (xArr m c) (hArr m c) (cArr m c) (wxArr m c) (whArr m c) (bArr m c) (((cfg0.win 7).blk t).view.emb (ix2 p j))
  rw [hemb, cellArr_ix2]
  refine (cellOut_apply (iblk m c 0 t) (iblk m c 1 t) (iblk m c 2 t) (iblk m c 3 t) (iblk m c 4 t) (iblk m c 5 t) p j).trans ?_
  unfold cellAt
  rw [show (fun k => iblk m c 0 t (ix2 p k)) = (fun k => xArr m c (ix2 (rowOf t p) k)) from funext fun k => read_rows0 m c t p k,
    show (fun k => iblk m c 1 t (ix2 p k)) = (fun k => hArr m c (ix2 (rowOf t p) k)) from funext fun k => read_rows1 m c t p k,
    show (fun q => iblk m c 5 t (ix2 (0 : Fin 1) q)) = (fun q => bArr m c (ix1 q)) from funext fun q => read_bias m c t q,
    show iblk m c 2 t (ix2 p j) = cArr m c (ix2 (rowOf t p) j) from read_rows2 m c t p j,
    show (iblk m c 3 t : S128x512.Idx → EReal) = wxArr m c from (read_whole3 m c t).trans (V_fusedX m c),
    show (iblk m c 4 t : S128x512.Idx → EReal) = whArr m c from (read_whole4 m c t).trans (V_fusedH m c)]

/-- An index of the new-cell array is in point t's block iff each coordinate is in the block's range on its axis. -/
theorem mem_blk_cell (t : Fin cfg0.N) (i : S131072x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v4_1).slice (win0_7.rect t)).set ↔ _
  rw [View.set_slice_whole, Rect.mem_set_unit]
  exact Iff.rfl

/-- Every sample's row lies in the block of the point numbered by its row divided by 2048. -/
theorem cover_cell (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  have hlt : (i 0).val / 2048 < cfg0.N := by show (i 0).val / 2048 < grid0.N; rw [N_0]; omega
  have e := idx_facts ⟨(i 0).val / 2048, hlt⟩
  have hv : (⟨(i 0).val / 2048, hlt⟩ : Fin cfg0.N).val = (i 0).val / 2048 := rfl
  refine ⟨⟨(i 0).val / 2048, hlt⟩, flush0_7 _, ?_⟩
  rw [mem_blk_cell]
  intro a
  match a with
  | ⟨0, _⟩ => show win0_7.index ⟨(i 0).val / 2048, hlt⟩ (0 : Fin 2) * 2048 ≤ (i 0).val ∧ (i 0).val < win0_7.index ⟨(i 0).val / 2048, hlt⟩ (0 : Fin 2) * 2048 + 2048; omega
  | ⟨1, _⟩ => show win0_7.index ⟨(i 0).val / 2048, hlt⟩ (1 : Fin 2) * 128 ≤ (i 1).val ∧ (i 1).val < win0_7.index ⟨(i 0).val / 2048, hlt⟩ (1 : Fin 2) * 128 + 128; omega

/-- The new-cell array after the run is the cell step's cell values of the argument arrays, at every sample and lane. -/
theorem final_cell (c : Dev nD) :
    (dats m 0 c).arrAt 7 cfg0.N = cellArr (xArr m c) (hArr m c) (cArr m c) (wxArr m c) (whArr m c) (bArr m c) :=
  (dats m 0 c).arrAt_eq_of_cover 7 _ (fun t _ => flushed_cell m c t) cover_cell

/-! ## The run, read -/

/-- Every weakly fair execution of the step terminates with the two result arrays at the cell step of the argument
    arrays, and the fifteen arguments unchanged. -/
theorem run : θ_run defs (onTc (τ := τ) (main (F := Ideal))) ⟨m, fun _ => 0, ρ⟩ fun r => ∀ c : Dev nD,
      r.2.mem ((c.tc : Thread nD τ).loc main_v4_0) = hidArr (xArr m c) (hArr m c) (cArr m c) (wxArr m c) (whArr m c) (bArr m c)
      ∧ r.2.mem ((c.tc : Thread nD τ).loc main_v4_1) = cellArr (xArr m c) (hArr m c) (cArr m c) (wxArr m c) (whArr m c) (bArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final_hid m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.StepValue

end
-- ==== Proof.RefCell.lean ====
/-
  The reference's two results are the cell step, sample by sample.

  Read one operation at a time, the host program's result element at (sample r, lane j) is the product and sums of
  the cell step: its two `dot_general`s are the plain sums over the shared axis, the bias is broadcast along the
  samples, the four column slices pick the four gates' lanes, and its sigmoid is spelt 1 / (1 + e^(-a)), which is the
  logistic function.
-/
import proofs.«144982_j25812753449993_1_alg».proof.Proof.Gen.ReferenceIdeal.Read
import proofs.«144982_j25812753449993_1_alg».proof.Proof.Spec
import proofs.«144982_j25812753449993_1_alg».proof.Proof.LibDotRowsCols

noncomputable section

open scoped BigOperators

namespace Cert.RefCell

open Idealize.ShloMosaic Idealize.ShloMosaic.ValueIdx Cert.Cell

/-- The reference's fused bias is the four gates' biases end to end. -/
private theorem v2_eq (x11 x12 x13 x14 : FVec Ideal SBv .f32) :
    Cert.ReferenceIdeal.Read.val_main_v2 (F := Ideal) x11 x12 x13 x14 = fuseB x11 x12 x13 x14 := rfl

/-- The reference's products contract the left operand's columns with the right operand's rows. -/
private theorem dotRC :
    Cert.Lib.DotRowsCols.RowsCols Cert.ReferenceIdeal.dot_S131072x128_S128x512_S131072x512_1_0_0_1_n_n :=
  ⟨rfl, rfl, rfl, rfl, rfl, rfl⟩

/-- The input product at (r, q): the sum over k of x (r, k) · Wx (k, q). Its right operand, the reference's join of
    the four input weight matrices along the columns, is the fused matrix Wx by definition. -/
private theorem v3_at (x0 : FVec Ideal SAct .f32) (x3 x4 x5 x6 : FVec Ideal SWt .f32) (r : Fin 131072) (q : Fin 512) :
    Cert.ReferenceIdeal.Read.val_main_v3 (F := Ideal) x0 x3 x4 x5 x6 (ix2 r q)
      = ∑ k : Fin 128, x0 (ix2 r k) * fuseW x3 x4 x5 x6 (ix2 k q) :=
  dotRC.dotGeneral_apply none x0 (fuseW x3 x4 x5 x6) (ix2 r q)

/-- The hidden product at (r, q): the sum over k of h (r, k) · Wh (k, q). Its right operand, the reference's join of
    the four hidden weight matrices along the columns, is the fused matrix Wh by definition. -/
private theorem v4_at (x1 : FVec Ideal SAct .f32) (x7 x8 x9 x10 : FVec Ideal SWt .f32) (r : Fin 131072) (q : Fin 512) :
    Cert.ReferenceIdeal.Read.val_main_v4 (F := Ideal) x1 x7 x8 x9 x10 (ix2 r q)
      = ∑ k : Fin 128, x1 (ix2 r k) * fuseW x7 x8 x9 x10 (ix2 k q) :=
  dotRC.dotGeneral_apply none x1 (fuseW x7 x8 x9 x10) (ix2 r q)

/-- The bias broadcast along the samples reads the fused bias at the column. -/
private theorem v7_at (x11 x12 x13 x14 : FVec Ideal SBv .f32) (r : Fin 131072) (q : Fin 512) :
    Cert.ReferenceIdeal.Read.val_main_v7 (F := Ideal) x11 x12 x13 x14 (ix2 r q) = fuseB x11 x12 x13 x14 (ix1 q) := by
  rw [Cert.ReferenceIdeal.Read.val_main_v7_apply, Cert.ReferenceIdeal.Read.val_main_v6_apply, v2_eq]
  refine congrArg (fuseB x11 x12 x13 x14) ?_
  funext a
  match a with
  | ⟨0, _⟩ => rfl

/-- The accumulated array at (r, q) is the pre-activation of fused column q for sample r:
    (x · Wx) (r, q) + (h · Wh) (r, q) + b q. -/
private theorem acc_at (x0 x1 : FVec Ideal SAct .f32) (x3 x4 x5 x6 x7 x8 x9 x10 : FVec Ideal SWt .f32) (x11 x12 x13 x14 : FVec Ideal SBv .f32) (r : Fin 131072) (q : Fin 512) :
    Cert.ReferenceIdeal.Read.val_main_v8 (F := Ideal) x0 x1 x3 x4 x5 x6 x7 x8 x9 x10 x11 x12 x13 x14 (ix2 r q) = pre (fun k => x0 (ix2 r k)) (fun k => x1 (ix2 r k)) (fuseW x3 x4 x5 x6) (fuseW x7 x8 x9 x10) (fun q => fuseB x11 x12 x13 x14 (ix1 q)) q := by
  rw [Cert.ReferenceIdeal.Read.val_main_v8_apply, Cert.ReferenceIdeal.Read.val_main_v5_apply, v3_at, v4_at, v7_at]
  rfl

/-- The slice of columns 0‥127 at (r, j) is the pre-activation of the input gate's fused column at lane j. -/
private theorem v9_at (x0 x1 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v9 (F := Ideal) x0 x1 x3 x4 x5 x6 x7 x8 x9 x10 x11 x12 x13 x14 (ix2 r j) = pre (fun k => x0 (ix2 r k)) (fun k => x1 (ix2 r k)) (fuseW x3 x4 x5 x6) (fuseW x7 x8 x9 x10) (fun q => fuseB x11 x12 x13 x14 (ix1 q)) (colI j) := by
  rw [Cert.ReferenceIdeal.Read.val_main_v9_apply]
  have e : Cert.ReferenceIdeal.Read.idx_main_v9 (ix2 r j) = ix2 r (colI j) := by
    funext a
    match a with
    | ⟨0, _⟩ => rfl
    | ⟨1, _⟩ => rfl
  rw [e]
  exact acc_at x0 x1 x3 x4 x5 x6 x7 x8 x9 x10 x11 x12 x13 x14 r (colI j)

/-- The slice of columns 128‥255 at (r, j) is the pre-activation of the forget gate's fused column at lane j. -/
private theorem v10_at (x0 x1 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v10 (F := Ideal) x0 x1 x3 x4 x5 x6 x7 x8 x9 x10 x11 x12 x13 x14 (ix2 r j) = pre (fun k => x0 (ix2 r k)) (fun k => x1 (ix2 r k)) (fuseW x3 x4 x5 x6) (fuseW x7 x8 x9 x10) (fun q => fuseB x11 x12 x13 x14 (ix1 q)) (colF j) := by
  rw [Cert.ReferenceIdeal.Read.val_main_v10_apply]
  have e : Cert.ReferenceIdeal.Read.idx_main_v10 (ix2 r j) = ix2 r (colF j) := by
    funext a
    match a with
    | ⟨0, _⟩ => rfl
    | ⟨1, _⟩ => rfl
  rw [e]
  exact acc_at x0 x1 x3 x4 x5 x6 x7 x8 x9 x10 x11 x12 x13 x14 r (colF j)

/-- The slice of columns 256‥383 at (r, j) is the pre-activation of the candidate's fused column at lane j. -/
private theorem v11_at (x0 x1 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v11 (F := Ideal) x0 x1 x3 x4 x5 x6 x7 x8 x9 x10 x11 x12 x13 x14 (ix2 r j) = pre (fun k => x0 (ix2 r k)) (fun k => x1 (ix2 r k)) (fuseW x3 x4 x5 x6) (fuseW x7 x8 x9 x10) (fun q => fuseB x11 x12 x13 x14 (ix1 q)) (colG j) := by
  rw [Cert.ReferenceIdeal.Read.val_main_v11_apply]
  have e : Cert.ReferenceIdeal.Read.idx_main_v11 (ix2 r j) = ix2 r (colG j) := by
    funext a
    match a with
    | ⟨0, _⟩ => rfl
    | ⟨1, _⟩ => rfl
  rw [e]
  exact acc_at x0 x1 x3 x4 x5 x6 x7 x8 x9 x10 x11 x12 x13 x14 r (colG j)

/-- The slice of columns 384‥511 at (r, j) is the pre-activation of the output gate's fused column at lane j. -/
private theorem v12_at (x0 x1 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v12 (F := Ideal) x0 x1 x3 x4 x5 x6 x7 x8 x9 x10 x11 x12 x13 x14 (ix2 r j) = pre (fun k => x0 (ix2 r k)) (fun k => x1 (ix2 r k)) (fuseW x3 x4 x5 x6) (fuseW x7 x8 x9 x10) (fun q => fuseB x11 x12 x13 x14 (ix1 q)) (colO j) := by
  rw [Cert.ReferenceIdeal.Read.val_main_v12_apply]
  have e : Cert.ReferenceIdeal.Read.idx_main_v12 (ix2 r j) = ix2 r (colO j) := by
    funext a
    match a with
    | ⟨0, _⟩ => rfl
    | ⟨1, _⟩ => rfl
  rw [e]
  exact acc_at x0 x1 x3 x4 x5 x6 x7 x8 x9 x10 x11 x12 x13 x14 r (colO j)

/-- The input gate at (r, j): 1 / (1 + e^(-a)) of its pre-activation a, which is the logistic function of a. -/
private theorem gateI_at (x0 x1 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v18 (F := Ideal) x0 x1 x3 x4 x5 x6 x7 x8 x9 x10 x11 x12 x13 x14 (ix2 r j) = Ideal.logistic (pre (fun k => x0 (ix2 r k)) (fun k => x1 (ix2 r k)) (fuseW x3 x4 x5 x6) (fuseW x7 x8 x9 x10) (fun q => fuseB x11 x12 x13 x14 (ix1 q)) (colI j)) := by
  rw [Cert.ReferenceIdeal.Read.val_main_v18_apply, Cert.ReferenceIdeal.Read.val_main_v17_apply, Cert.ReferenceIdeal.Read.val_main_cst_0_apply,
    Cert.ReferenceIdeal.Read.val_main_v16_apply, Cert.ReferenceIdeal.Read.val_main_v15_apply, Cert.ReferenceIdeal.Read.val_main_cst_apply,
    Cert.ReferenceIdeal.Read.val_main_v14_apply, Cert.ReferenceIdeal.Read.val_main_v13_apply, v9_at]
  exact logistic_spelt _

/-- The forget gate at (r, j): 1 / (1 + e^(-a)) of its pre-activation a, which is the logistic function of a. -/
private theorem gateF_at (x0 x1 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v24 (F := Ideal) x0 x1 x3 x4 x5 x6 x7 x8 x9 x10 x11 x12 x13 x14 (ix2 r j) = Ideal.logistic (pre (fun k => x0 (ix2 r k)) (fun k => x1 (ix2 r k)) (fuseW x3 x4 x5 x6) (fuseW x7 x8 x9 x10) (fun q => fuseB x11 x12 x13 x14 (ix1 q)) (colF j)) := by
  rw [Cert.ReferenceIdeal.Read.val_main_v24_apply, Cert.ReferenceIdeal.Read.val_main_v23_apply, Cert.ReferenceIdeal.Read.val_main_cst_2_apply,
    Cert.ReferenceIdeal.Read.val_main_v22_apply, Cert.ReferenceIdeal.Read.val_main_v21_apply, Cert.ReferenceIdeal.Read.val_main_cst_1_apply,
    Cert.ReferenceIdeal.Read.val_main_v20_apply, Cert.ReferenceIdeal.Read.val_main_v19_apply, v10_at]
  exact logistic_spelt _

/-- The output gate at (r, j): 1 / (1 + e^(-a)) of its pre-activation a, which is the logistic function of a. -/
private theorem gateO_at (x0 x1 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v30 (F := Ideal) x0 x1 x3 x4 x5 x6 x7 x8 x9 x10 x11 x12 x13 x14 (ix2 r j) = Ideal.logistic (pre (fun k => x0 (ix2 r k)) (fun k => x1 (ix2 r k)) (fuseW x3 x4 x5 x6) (fuseW x7 x8 x9 x10) (fun q => fuseB x11 x12 x13 x14 (ix1 q)) (colO j)) := by
  rw [Cert.ReferenceIdeal.Read.val_main_v30_apply, Cert.ReferenceIdeal.Read.val_main_v29_apply, Cert.ReferenceIdeal.Read.val_main_cst_4_apply,
    Cert.ReferenceIdeal.Read.val_main_v28_apply, Cert.ReferenceIdeal.Read.val_main_v27_apply, Cert.ReferenceIdeal.Read.val_main_cst_3_apply,
    Cert.ReferenceIdeal.Read.val_main_v26_apply, Cert.ReferenceIdeal.Read.val_main_v25_apply, v12_at]
  exact logistic_spelt _

/-- The new cell array at (r, j): forget gate times the previous cell value plus input gate times the tanh of the
    candidate's pre-activation. -/
private theorem cell_at (x0 x1 x2 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v34 (F := Ideal) x0 x1 x2 x3 x4 x5 x6 x7 x8 x9 x10 x11 x12 x13 x14 (ix2 r j)
      = cellAt x0 x1 x2 (fuseW x3 x4 x5 x6) (fuseW x7 x8 x9 x10) (fuseB x11 x12 x13 x14) r j := by
  rw [Cert.ReferenceIdeal.Read.val_main_v34_apply, Cert.ReferenceIdeal.Read.val_main_v32_apply, Cert.ReferenceIdeal.Read.val_main_v33_apply, Cert.ReferenceIdeal.Read.val_main_v31_apply,
    gateF_at, gateI_at, v11_at]
  rfl

/-- The new hidden array at (r, j): output gate times the tanh of the new cell value. -/
private theorem hid_at (x0 x1 x2 : FVec Ideal SAct .f32) (x3 x4 x5 x6 x7 x8 x9 x10 : FVec Ideal SWt .f32) (x11 x12 x13 x14 : FVec Ideal SBv .f32) (r : Fin 131072) (j : Fin 128) :
    Cert.ReferenceIdeal.Read.val_main_v36 (F := Ideal) x0 x1 x2 x3 x4 x5 x6 x7 x8 x9 x10 x11 x12 x13 x14 (ix2 r j)
      = hidAt x0 x1 x2 (fuseW x3 x4 x5 x6) (fuseW x7 x8 x9 x10) (fuseB x11 x12 x13 x14) r j := by
  rw [Cert.ReferenceIdeal.Read.val_main_v36_apply, Cert.ReferenceIdeal.Read.val_main_v35_apply, gateO_at, cell_at]
  rfl

/-- The reference's second result (the new cell array) is the cell step's cell value at every sample and lane. -/
theorem cell_eq (x0 x1 x2 : FVec Ideal SAct .f32) (x3 x4 x5 x6 x7 x8 x9 x10 : FVec Ideal SWt .f32) (x11 x12 x13 x14 : FVec Ideal SBv .f32) :
    Cert.ReferenceIdeal.Read.val_main_v34 (F := Ideal) x0 x1 x2 x3 x4 x5 x6 x7 x8 x9 x10 x11 x12 x13 x14
      = cellArr x0 x1 x2 (fuseW x3 x4 x5 x6) (fuseW x7 x8 x9 x10) (fuseB x11 x12 x13 x14) := by
  funext i
  obtain ⟨r, j, rfl⟩ : ∃ (r : Fin 131072) (j : Fin 128), i = ix2 r j := ⟨i 0, i 1, eq_ix2 i⟩
  exact cell_at x0 x1 x2 x3 x4 x5 x6 x7 x8 x9 x10 x11 x12 x13 x14 r j

/-- The reference's first result (the new hidden array) is the cell step's hidden value at every sample and lane. -/
theorem hid_eq (x0 x1 x2 : FVec Ideal SAct .f32) (x3 x4 x5 x6 x7 x8 x9 x10 : FVec Ideal SWt .f32) (x11 x12 x13 x14 : FVec Ideal SBv .f32) :
    Cert.ReferenceIdeal.Read.val_main_v36 (F := Ideal) x0 x1 x2 x3 x4 x5 x6 x7 x8 x9 x10 x11 x12 x13 x14
      = hidArr x0 x1 x2 (fuseW x3 x4 x5 x6) (fuseW x7 x8 x9 x10) (fuseB x11 x12 x13 x14) := by
  funext i
  obtain ⟨r, j, rfl⟩ : ∃ (r : Fin 131072) (j : Fin 128), i = ix2 r j := ⟨i 0, i 1, eq_ix2 i⟩
  exact hid_at x0 x1 x2 x3 x4 x5 x6 x7 x8 x9 x10 x11 x12 x13 x14 r j

end Cert.RefCell

end
-- ==== Proof.lean ====
/-
  A fused LSTM step computed 2048 samples at a time is the LSTM step.

  The kernel joins the four gates' input weights into one [128 × 512] matrix, the hidden weights into another and the
  biases into one vector, and then, for each block of 2048 samples, forms the fused pre-activations
  (x · Wx + h · Wh) + b with two products into a zero accumulator, cuts them into the four gates' lanes, and stores
  c' = σ(f) · c + σ(i) · tanh(g) and h' = σ(o) · tanh(c'). The reference joins the same matrices and does the same on
  all 131072 samples at once, with its sigmoid spelt 1 / (1 + e^(-a)). On the extended reals, where a change of float
  format is the identity and a product into zero is the plain sum over the shared axis, both are the same function of
  the argument arrays entry by entry: a sample's row of pre-activations does not depend on which block of samples it
  is computed with, and 1 / (1 + e^(-a)) is the logistic function by definition. No law that needs finite entries is
  used, so the precondition is never opened.

  The three programs each run to the end and leave their arguments unchanged: the kernel programs as a pipeline over
  64 blocks whose body only loads whole blocks and stores two whole blocks (Proof/IdealStep.lean and its copy for the
  word-level program), the reference as a straight line of host operations. The idealized kernel's two result arrays
  are read off the pipeline's run block by block (Proof/IdealValue.lean, over Proof/BlockCell.lean), the reference's
  two results one operation at a time (Proof/RefCell.lean), both against the cell step stated once for one sample
  (Proof/Spec.lean).
-/
import proofs.«144982_j25812753449993_1_alg».proof.Defs
import proofs.«144982_j25812753449993_1_alg».proof.Proof.Gen.Kernel
import proofs.«144982_j25812753449993_1_alg».proof.Proof.Gen.Kernel.Skeleton
import proofs.«144982_j25812753449993_1_alg».proof.Proof.Gen.Kernel.Launch
import proofs.«144982_j25812753449993_1_alg».proof.Proof.Gen.Kernel.Points
import proofs.«144982_j25812753449993_1_alg».proof.Proof.Gen.KernelIdeal
import proofs.«144982_j25812753449993_1_alg».proof.Proof.Gen.KernelIdeal.Skeleton
import proofs.«144982_j25812753449993_1_alg».proof.Proof.Gen.KernelIdeal.Launch
import proofs.«144982_j25812753449993_1_alg».proof.Proof.Gen.KernelIdeal.Points
import proofs.«144982_j25812753449993_1_alg».proof.Proof.Gen.ReferenceIdeal
import proofs.«144982_j25812753449993_1_alg».proof.Proof.Gen.ReferenceIdeal.Run
import proofs.«144982_j25812753449993_1_alg».proof.Proof.Gen.ReferenceIdeal.Read
import proofs.«144982_j25812753449993_1_alg».proof.Proof.Gen.Pre_finite_inputs
import proofs.«144982_j25812753449993_1_alg».proof.Proof.IdealStep
import proofs.«144982_j25812753449993_1_alg».proof.Proof.BitsStep
import proofs.«144982_j25812753449993_1_alg».proof.Proof.IdealValue
import proofs.«144982_j25812753449993_1_alg».proof.Proof.RefCell
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Step.frame m ρ

/-- So does the idealized kernel program. -/
theorem frame_kernelIdeal : Cert.frame_KernelIdeal := fun m ρ _ => Cert.KernelIdeal.Step.frame m ρ

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read on the extended reals: no operation was rewritten. -/
theorem preserves : Cert.preserves_Kernel_KernelIdeal := trivial

/-- From memories that agree on the fifteen arguments, the idealized kernel ends with its two result arrays at the
    cell step of the arguments, block by block, and the reference ends with its two results at the same function,
    operation by operation. -/
theorem algebraic : Cert.algebraic_KernelIdeal_ReferenceIdeal := by
  intro m ρ m' ρ' _ hagree
  refine ⟨_, _, Cert.KernelIdeal.StepValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.RefCell.hid_eq, a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v34_eq, Cert.RefCell.cell_eq, a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
